-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x10 : Shape := ⟨2, ![8192, 10]⟩
abbrev S3x10 : Shape := ⟨2, ![3, 10]⟩
abbrev S_ : Shape := ⟨0, ![]⟩

class Facts : Prop where
  bcast_S_S8192x10 : S_.BroadcastsInDim S8192x10 (![] : Fin 0 → Fin S8192x10.rank)
  reducesTo_S8192x10_S_d0_1 : S8192x10.ReducesTo [0, 1] S_
  h_S_ : 0 < S_.numel
  bcast_S_S3x10 : S_.BroadcastsInDim S3x10 (![] : Fin 0 → Fin S3x10.rank)
  reducesTo_S3x10_S_d0_1 : S3x10.ReducesTo [0, 1] S_

variable [Facts]

def fn {F : FTy → Type} [FloatOps F] (main_arg0 : FVec F S8192x10 .f32) (main_arg1 : FVec F S3x10 .f32) : IVec S_ 1 :=
  let main_v0 : FVec F S8192x10 .f32 := Host.absf main_arg0
  let main_cst : FVec F S_ .f32 := constant S_ .f32 0x7F800000#32
  let main_v1 : FVec F S8192x10 .f32 := broadcastInDim S8192x10 ![] bcast_S_S8192x10 main_cst
  let main_v2 : IVec S8192x10 1 := cmpf .olt main_v0 main_v1
  let main_c : IVec S_ 1 := constantI S_ 1 1#1
  let main_v3 : IVec S_ 1 := (fun x v => Host.reduce IntOp.andi x v reducesTo_S8192x10_S_d0_1 h_S_) main_v2 main_c
  let main_v4 : FVec F S3x10 .f32 := Host.absf main_arg1
  let main_cst_0 : FVec F S_ .f32 := constant S_ .f32 0x7F800000#32
  let main_v5 : FVec F S3x10 .f32 := broadcastInDim S3x10 ![] bcast_S_S3x10 main_cst_0
  let main_v6 : IVec S3x10 1 := cmpf .olt main_v4 main_v5
  let main_c_1 : IVec S_ 1 := constantI S_ 1 1#1
  let main_v7 : IVec S_ 1 := (fun x v => Host.reduce IntOp.andi x v reducesTo_S3x10_S_d0_1 h_S_) main_v6 main_c_1
  let main_v8 : IVec S_ 1 := andi main_v3 main_v7
  main_v8
-- ==== Kernel.lean ====
abbrev S8192x10 : Shape := ⟨2, ![8192, 10]⟩
abbrev S3x10 : Shape := ⟨2, ![3, 10]⟩
abbrev S8192x3 : Shape := ⟨2, ![8192, 3]⟩
abbrev S1024x10 : Shape := ⟨2, ![1024, 10]⟩
abbrev S1024x3 : Shape := ⟨2, ![1024, 3]⟩
abbrev S1x10 : Shape := ⟨2, ![1, 10]⟩
abbrev S1024 : Shape := ⟨1, ![1024]⟩
abbrev S1024x1 : Shape := ⟨2, ![1024, 1]⟩
abbrev S3x8192 : Shape := ⟨2, ![3, 8192]⟩
abbrev S8192x8192 : Shape := ⟨2, ![8192, 8192]⟩
abbrev S3x1024 : Shape := ⟨2, ![3, 1024]⟩
abbrev S1024x1024 : Shape := ⟨2, ![1024, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x10, .f32⟩
  | .hbm, ⟨1, _⟩ => ⟨S3x10, .f32⟩
  | .hbm, ⟨2, _⟩ => ⟨S8192x3, .f32⟩
  | .hbm, ⟨3, _⟩ => ⟨S3x8192, .f32⟩
  | .hbm, ⟨4, _⟩ => ⟨S8192x8192, .f32⟩
  | .local _ .vmem, ⟨0, _⟩ => ⟨S1024x10, .f32⟩
  | .local _ .vmem, ⟨1, _⟩ => ⟨S1024x10, .f32⟩
  | .local _ .vmem, ⟨2, _⟩ => ⟨S3x10, .f32⟩
  | .local _ .vmem, ⟨3, _⟩ => ⟨S1024x3, .f32⟩
  | .local _ .vmem, ⟨4, _⟩ => ⟨S1024x3, .f32⟩
  | .local _ .vmem, ⟨5, _⟩ => ⟨S1024x3, .f32⟩
  | .local _ .vmem, ⟨6, _⟩ => ⟨S1024x3, .f32⟩
  | .local _ .vmem, ⟨7, _⟩ => ⟨S3x1024, .f32⟩
  | .local _ .vmem, ⟨8, _⟩ => ⟨S3x1024, .f32⟩
  | .local _ .vmem, ⟨9, _⟩ => ⟨S1024x1024, .f32⟩
  | .local _ .vmem, ⟨10, _⟩ => ⟨S1024x1024, .f32⟩
  | _, _ => ⟨S8192x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x10_S1024x10_0_0 : ∀ a, (![0, 0] : Fin 2 → Nat) a + S1024x10.size a ≤ S1024x10.size a
  h_S1024x10 : 0 < S1024x10.numel
  inb_S3x10_S3x10_0_0 : ∀ a, (![0, 0] : Fin 2 → Nat) a + S3x10.size a ≤ S3x10.size a
  h_S3x10 : 0 < S3x10.numel
  slices_S3x10_o0_0_S1x10 : S3x10.Slices ![0, 0] S1x10
  broadcasts_S1x10_S1024x10 : S1x10.Broadcasts S1024x10
  reduces_S1024x10_S1024 : S1024x10.Reduces [1] S1024
  shapeCasts_S1024_S1024x1 : S1024.ShapeCasts S1024x1
  slices_S3x10_o1_0_S1x10 : S3x10.Slices ![1, 0] S1x10
  slices_S3x10_o2_0_S1x10 : S3x10.Slices ![2, 0] S1x10
  concatenates_S1024x1_S1024x1_S1024x1_S1024x3_d1 : Shape.Concatenates [S1024x1, S1024x1, S1024x1] S1024x3 1
  inb_S1024x3_S1024x3_0_0 : ∀ a, (![0, 0] : Fin 2 → Nat) a + S1024x3.size a ≤ S1024x3.size a
  h_S1024x3 : 0 < S1024x3.numel
  transposes_S8192x3_S3x8192_1_0 : S8192x3.Transposes [1, 0] S3x8192
  shapeCasts_S1024x3_S1024x3 : S1024x3.ShapeCasts S1024x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  slices_S1024x3_o0_0_S1024x1 : S1024x3.Slices ![0, 0] S1024x1
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S1024x3_o0_1_S1024x1 : S1024x3.Slices ![0, 1] S1024x1
  slices_S3x1024_o1_0_S1x1024 : S3x1024.Slices ![1, 0] S1x1024
  slices_S1024x3_o0_2_S1024x1 : S1024x3.Slices ![0, 2] S1024x1
  slices_S3x1024_o2_0_S1x1024 : S3x1024.Slices ![2, 0] S1x1024
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x10.size a ≤ S8192x10.size a
  hwx0_0 : ∀ i : grid0.Coords, EltTy.bits .f32 = 32 ∨ (Rect.block (s := S8192x10) S1024x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x10.size a ≤ S3x10.size a
  hwx0_1 : ∀ i : grid0.Coords, EltTy.bits .f32 = 32 ∨ (Rect.block (s := S3x10) S3x10.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S8192x3.size a
  hwx0_2 : ∀ i : grid0.Coords, EltTy.bits .f32 = 32 ∨ (Rect.block (s := S8192x3) S1024x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x3.size a ≤ S8192x3.size a
  hwx1_0 : ∀ i : grid1.Coords, EltTy.bits .f32 = 32 ∨ (Rect.block (s := S8192x3) S1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1024.size a ≤ S3x8192.size a
  hwx1_1 : ∀ i : grid1.Coords, EltTy.bits .f32 = 32 ∨ (Rect.block (s := S3x8192) S3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S8192x8192.size a
  hwx1_2 : ∀ i : grid1.Coords, EltTy.bits .f32 = 32 ∨ (Rect.block (s := S8192x8192) S1024x1024.size (cc1_transform_2 i) (hinb1_2 i)).WholeWords (EltTy.packing .f32)

variable [Facts₀]

abbrev win0_0 : Pipeline.Window sig grid0 :=
  Pipeline.Window.ofSpec (Memref.whole main_arg0) S1024x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x10 : Shape := ⟨2, ![8192, 10]⟩
abbrev S3x10 : Shape := ⟨2, ![3, 10]⟩
abbrev S8192x1x10 : Shape := ⟨3, ![8192, 1, 10]⟩
abbrev S1x3x10 : Shape := ⟨3, ![1, 3, 10]⟩
abbrev S8192x3x10 : Shape := ⟨3, ![8192, 3, 10]⟩
abbrev S_ : Shape := ⟨0, ![]⟩
abbrev S8192x3 : Shape := ⟨2, ![8192, 3]⟩
abbrev S8192x1x3 : Shape := ⟨3, ![8192, 1, 3]⟩
abbrev S1x8192x3 : Shape := ⟨3, ![1, 8192, 3]⟩
abbrev S8192x8192x3 : Shape := ⟨3, ![8192, 8192, 3]⟩
abbrev S8192x8192 : Shape := ⟨2, ![8192, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x10, .f32⟩
  | .hbm, ⟨1, _⟩ => ⟨S3x10, .f32⟩
  | .hbm, ⟨2, _⟩ => ⟨S8192x10, .f32⟩
  | .hbm, ⟨3, _⟩ => ⟨S8192x1x10, .f32⟩
  | .hbm, ⟨4, _⟩ => ⟨S3x10, .f32⟩
  | .hbm, ⟨5, _⟩ => ⟨S1x3x10, .f32⟩
  | .hbm, ⟨6, _⟩ => ⟨S8192x3x10, .f32⟩
  | .hbm, ⟨7, _⟩ => ⟨S8192x3x10, .f32⟩
  | .hbm, ⟨8, _⟩ => ⟨S8192x3x10, .f32⟩
  | .hbm, ⟨9, _⟩ => ⟨S_, .f32⟩
  | .hbm, ⟨10, _⟩ => ⟨S8192x3, .f32⟩
  | .hbm, ⟨11, _⟩ => ⟨S8192x3, .f32⟩
  | .hbm, ⟨12, _⟩ => ⟨S8192x1x3, .f32⟩
  | .hbm, ⟨13, _⟩ => ⟨S8192x3, .f32⟩
  | .hbm, ⟨14, _⟩ => ⟨S1x8192x3, .f32⟩
  | .hbm, ⟨15, _⟩ => ⟨S8192x8192x3, .f32⟩
  | .hbm, ⟨16, _⟩ => ⟨S8192x8192x3, .f32⟩
  | .hbm, ⟨17, _⟩ => ⟨S8192x8192x3, .f32⟩
  | .hbm, ⟨18, _⟩ => ⟨S_, .f32⟩
  | .hbm, ⟨19, _⟩ => ⟨S8192x8192, .f32⟩
  | _, _ => ⟨S8192x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  bcast_S8192x10_S8192x1x10_0_2 : S8192x10.BroadcastsInDim S8192x1x10 (![0, 2] : Fin 2 → Fin S8192x1x10.rank)
  bcast_S3x10_S1x3x10_1_2 : S3x10.BroadcastsInDim S1x3x10 (![1, 2] : Fin 2 → Fin S1x3x10.rank)
  bcast_S8192x1x10_S8192x3x10_0_1_2 : S8192x1x10.BroadcastsInDim S8192x3x10 (![0, 1, 2] : Fin 3 → Fin S8192x3x10.rank)
  bcast_S1x3x10_S8192x3x10_0_1_2 : S1x3x10.BroadcastsInDim S8192x3x10 (![0, 1, 2] : Fin 3 → Fin S8192x3x10.rank)
  reducesTo_S8192x3x10_S8192x3_d2 : S8192x3x10.ReducesTo [2] S8192x3
  h_S_ : 0 < S_.numel
  bcast_S8192x3_S8192x1x3_0_2 : S8192x3.BroadcastsInDim S8192x1x3 (![0, 2] : Fin 2 → Fin S8192x1x3.rank)
  bcast_S8192x3_S1x8192x3_1_2 : S8192x3.BroadcastsInDim S1x8192x3 (![1, 2] : Fin 2 → Fin S1x8192x3.rank)
  bcast_S8192x1x3_S8192x8192x3_0_1_2 : S8192x1x3.BroadcastsInDim S8192x8192x3 (![0, 1, 2] : Fin 3 → Fin S8192x8192x3.rank)
  bcast_S1x8192x3_S8192x8192x3_0_1_2 : S1x8192x3.BroadcastsInDim S8192x8192x3 (![0, 1, 2] : Fin 3 → Fin S8192x8192x3.rank)
  reducesTo_S8192x8192x3_S8192x8192_d2 : S8192x8192x3.ReducesTo [2] S8192x8192

variable [Facts₀]

class Facts : Prop extends Facts₀ where

variable [Facts]
-- ==== Proof.MaxPlus.lean ====
/-
  The mathematics both programs compute, stated once over the extended reals and importing no program.

  One max-plus ("tropical") layer sends rows x(n, ·) and w(m, ·) to  max over k of |x(n,k)| + |w(m,k)|.
  The network applies it twice: first to the inputs (10 columns, giving 3 hidden columns per row), then to
  the hidden rows against themselves (3 columns, giving an 8192 × 8192 table of distances).

  A maximum over k is written as the fold of `max` over the column indices, started from the word both
  programs print for minus infinity; that word is never evaluated except in the one lemma that says it is
  neutral for `max`.  The kernel computes the second layer as an explicit three-way maximum whose second
  operand is the transposed hidden table; `tableCols_transpose` is the one law that joins the two forms:
  a fold of `max` over three indices from a neutral start is the nested maximum of the three terms.
  No finiteness is used: `max` on the extended reals is commutative and associative everywhere.
  Every function is first given at explicit coordinates (`…At`), then as an array by reading the index's
  two coordinates.
-/
import Idealize.ShloMosaic.PureOps.Ideal
import Idealize.ShloMosaic.PureOps.Ideal.Laws
import Idealize.ShloMosaic.Lib.ValueIdx

noncomputable section

namespace Cert.MaxPlus

open Idealize.ShloMosaic Idealize.ShloMosaic.ValueIdx

/-- The absolute value on the extended reals. -/
abbrev mag (a : EReal) : EReal := max a (-a)

/-- The word both programs start a maximum from (the f32 pattern of minus infinity), unevaluated. -/
abbrev lo : EReal := Ideal.ofBits .f32 0xFF800000#32

/-- That word is neutral for `max`: it denotes the bottom of the extended reals. -/
theorem lo_max (x : EReal) : max lo x = x := by
  show max (Ideal.ofBits .f32 0xFF800000#32) x = x
  simp [Ideal.ofBits, Ideal.ieee]

abbrev Rows10 : Shape := ⟨2, ![8192, 10]⟩
abbrev Wts10 : Shape := ⟨2, ![3, 10]⟩
abbrev Rows3 : Shape := ⟨2, ![8192, 3]⟩
abbrev Cols3 : Shape := ⟨2, ![3, 8192]⟩
abbrev Table : Shape := ⟨2, ![8192, 8192]⟩

/-- The first layer at (n, m): the maximum over the 10 columns k of |x(n,k)| + |w(m,k)|. -/
def layerOneAt (x : Rows10.Idx → EReal) (w : Wts10.Idx → EReal) (n : Fin 8192) (m : Fin 3) : EReal :=
  (Finset.univ : Finset (Fin 10)).fold max lo (fun k : Fin 10 => mag (x (ix2 n k)) + mag (w (ix2 m k)))

/-- The first layer as an 8192 × 3 array. -/
def layerOne (x : Rows10.Idx → EReal) (w : Wts10.Idx → EReal) : Rows3.Idx → EReal :=
  fun i => layerOneAt x w (i 0) (i 1)

/-- The second layer at (n, n'): the maximum over the 3 hidden columns k of |o(n,k)| + |o(n',k)|. -/
def layerTwoAt (o : Rows3.Idx → EReal) (n n' : Fin 8192) : EReal :=
  (Finset.univ : Finset (Fin 3)).fold max lo (fun k : Fin 3 => mag (o (ix2 n k)) + mag (o (ix2 n' k)))

/-- The second layer as an 8192 × 8192 table. -/
def layerTwo (o : Rows3.Idx → EReal) : Table.Idx → EReal :=
  fun i => layerTwoAt o (i 0) (i 1)

/-- The second layer as the kernel forms it, at (n, n'): the nested maximum of the three column terms, the second
    operand read from a 3 × 8192 table `oT` (the hidden table transposed). -/
def tableColsAt (o : Rows3.Idx → EReal) (oT : Cols3.Idx → EReal) (n n' : Fin 8192) : EReal :=
  max (max (mag (o (ix2 n (0 : Fin 3))) + mag (oT (ix2 (0 : Fin 3) n')))
           (mag (o (ix2 n (1 : Fin 3))) + mag (oT (ix2 (1 : Fin 3) n'))))
      (mag (o (ix2 n (2 : Fin 3))) + mag (oT (ix2 (2 : Fin 3) n')))

/-- The same as a table. -/
def tableCols (o : Rows3.Idx → EReal) (oT : Cols3.Idx → EReal) : Table.Idx → EReal :=
  fun i => tableColsAt o oT (i 0) (i 1)

/-- A fold of `max` over three indices from the neutral start is the nested maximum of the three terms. -/
theorem fold_max_three (f : Fin 3 → EReal) :
    (Finset.univ : Finset (Fin 3)).fold max lo f = max (max (f 0) (f 1)) (f 2) := by
  rw [show (Finset.univ : Finset (Fin 3)) = insert 0 (insert 1 {2}) from by decide,
    Finset.fold_insert (by decide), Finset.fold_insert (by decide), Finset.fold_singleton,
    max_comm (f 2) lo, lo_max, max_assoc]

/-- With the second operand the transposed table, the kernel's three-way maximum is the second layer. -/
theorem tableCols_transpose (o : Rows3.Idx → EReal) (oT : Cols3.Idx → EReal)
    (hT : ∀ (k : Fin 3) (n : Fin 8192), oT (ix2 k n) = o (ix2 n k)) :
    tableCols o oT = layerTwo o := by
  funext i
  show tableColsAt o oT (i 0) (i 1) = layerTwoAt o (i 0) (i 1)
  unfold tableColsAt layerTwoAt
  rw [fold_max_three, hT 0 (i 1), hT 1 (i 1), hT 2 (i 1)]

end Cert.MaxPlus

end
-- ==== Proof.HiddenBlocks.lean ====
/-
  The first pallas_call's output array, as one function of the arrays the call finds.

  The call walks the 8192 rows in 8 blocks of 1024.  At a block it loads the 1024 × 10 rows and the whole
  3 × 10 weight table, and stores a 1024 × 3 block whose entry (p, q) is the maximum over the 10 columns k of
  |x(p,k)| + |w(q,k)|: column q of the block is the row maxima of |x| + (row q of |w| broadcast down the rows),
  and the three columns are concatenated.  Read at an index, the lane maximum is the fold of `max` over the
  column indices from the minus-infinity word, which is the first layer of `Cert.MaxPlus` restricted to the block.
  Row block t covers rows 1024·t … 1024·t + 1023, the eight blocks cover the array, so the array ends holding
  `layerOne` of the two arrays the call read.
-/
import proofs.«134194_j9251359556270_1_alg».proof.Proof.Gen.KernelIdeal.Frame
import proofs.«134194_j9251359556270_1_alg».proof.Proof.MaxPlus
import Idealize.ShloMosaic.Lib.Pipeline.Value
import Idealize.ShloMosaic.Lib.ValueLayout
import Idealize.ShloMosaic.PureOps.Ideal.Laws

noncomputable section

namespace Cert.KernelIdeal.HiddenBlocks

open Cert.KernelIdeal Cert.KernelIdeal.Gen Cert.MaxPlus
open Idealize.ShloMosaic Idealize.ShloMosaic.TcCoe Idealize.ShloMosaic.ValueIdx Idealize.SL.Sem
open Idealize.ShloMosaic.Pipeline (Dat)

/-! ## The block's payload at an index -/

/-- Row p of the 1024 × 10 sum with column k inserted is the index (p, k). -/
theorem lift_row (p : Fin 1024) (k : Fin 10) : reduces_S1024x10_S1024.lift (ix1 p) k = ix2 p k :=
  funext fun a => Fin.ext (match a with | ⟨0, _⟩ => rfl | ⟨1, _⟩ => rfl)

/-- A fold over the dropped axis's coordinates is the fold over the column index with (p, k) read. -/
theorem fold_row (y : S1024x10.Idx → EReal) (p : Fin 1024) :
    (Finset.univ : Finset (Fin (S1024x10.size 1))).fold max lo (y ∘ reduces_S1024x10_S1024.lift (ix1 p))
      = (Finset.univ : Finset (Fin 10)).fold max lo (fun k : Fin 10 => y (ix2 p k)) :=
  Finset.fold_congr (fun k _ => congrArg y (lift_row p k))

/-- A row's lane maximum, read at row p: the fold of `max` over the 10 columns from the accumulator's word (the format
    and accumulator facts as the printed operation carries them, never evaluated). -/
theorem rowmax_apply (src : FVec Ideal S1024x10 .f32) (hφ : FKind.Formats .f32)
    (hacc : (0xFF800000#32 : BitVec 32) = FKind.maximumf.neutral .f32 hφ) (p : Fin 1024) :
    multiReduction (F := Ideal) .maximumf [1] S1024 src 0xFF800000#32 reduces_S1024x10_S1024 hφ hacc (ix1 p)
      = (Finset.univ : Finset (Fin 10)).fold max lo (fun k : Fin 10 => src (ix2 p k)) :=
  (Ideal.multiReduction_maximumf_single src 0xFF800000#32 reduces_S1024x10_S1024 hφ hacc (ix1 p)).trans (fold_row src p)

/-- One column of the block: the row maxima of |x| + (row q of |w|), kept as a 1024 × 1 column, read at row p. -/
theorem column_apply (x0 : FVec Ideal S1024x10 .f32) (x1 : FVec Ideal S3x10 .f32) (o : Nat) (q : Fin 3) (hq : q.val = o)
    (hs : S3x10.Slices ![o, 0] S1x10) (p : Fin 1024) :
    shapeCast S1024x1 (multiReduction (F := Ideal) .maximumf [1] S1024
        (addf (absf x0) (broadcastTo S1024x10 (extractStridedSlice S1x10 ![o, 0] (absf x1) hs) broadcasts_S1x10_S1024x10))
        0xFF800000#32 reduces_S1024x10_S1024 (.inl rfl) rfl) shapeCasts_S1024_S1024x1 (ix2 p (0 : Fin 1))
      = (Finset.univ : Finset (Fin 10)).fold max lo (fun k : Fin 10 => mag (x0 (ix2 p k)) + mag (x1 (ix2 q k))) := by
  refine (shapeCast_apply _ shapeCasts_S1024_S1024x1 (ix2 p (0 : Fin 1)) (ix1 p) ?_).trans ?_
  · rw [Shape.rowMajor_val_one, Shape.rowMajor_val_two]
    show p.val = p.val * 1 + 0
    omega
  refine (rowmax_apply _ _ _ p).trans ?_
  refine Finset.fold_congr (fun k _ => ?_)
  show mag (x0 (ix2 p k)) + broadcastTo S1024x10 (extractStridedSlice S1x10 ![o, 0] (absf x1) hs) broadcasts_S1x10_S1024x10 (ix2 p k) = _
  rw [broadcastTo_1b_ab_apply, slice2_axis0_apply o _ hs (0 : Fin 1) k q (by omega)]
  rfl

/-- Three 1024 × 1 columns concatenated along the lanes: column q of the result, at row p, is the q-th piece at row p. -/
theorem concat_columns_apply {α : Type} (a b c : S1024x1.Idx → α)
    (h : Shape.Concatenates [S1024x1, S1024x1, S1024x1] S1024x3 1) (p : Fin 1024) :
    concatenate S1024x3 1 [⟨S1024x1, a⟩, ⟨S1024x1, b⟩, ⟨S1024x1, c⟩] h (ix2 p (0 : Fin 3)) = a (ix2 p (0 : Fin 1))
    ∧ concatenate S1024x3 1 [⟨S1024x1, a⟩, ⟨S1024x1, b⟩, ⟨S1024x1, c⟩] h (ix2 p (1 : Fin 3)) = b (ix2 p (0 : Fin 1))
    ∧ concatenate S1024x3 1 [⟨S1024x1, a⟩, ⟨S1024x1, b⟩, ⟨S1024x1, c⟩] h (ix2 p (2 : Fin 3)) = c (ix2 p (0 : Fin 1)) := by
  have hoff : ∀ (q : Fin 3) (bb : Fin S1024x1.rank), bb.cast (rfl : S1024x1.rank = S1024x3.rank) ≠ (1 : Fin 2) →
      (ix2 p (0 : Fin 1) bb).val = (ix2 p q (bb.cast (rfl : S1024x1.rank = S1024x3.rank))).val := by
    intro q bb hb
    match bb, hb with
    | ⟨0, _⟩, _ => rfl
    | ⟨1, _⟩, hb => exact absurd rfl hb
  refine ⟨?_, ?_, ?_⟩
  · exact concatenate_apply_piece (t := S1024x3) (1 : Fin 2) [⟨S1024x1, a⟩, ⟨S1024x1, b⟩, ⟨S1024x1, c⟩] h (ix2 p (0 : Fin 3)) 0 (by show 0 < 3; decide)
      S1024x1 a rfl rfl 0 rfl (ix2 p (0 : Fin 1)) (hoff 0) rfl
  · exact concatenate_apply_piece (t := S1024x3) (1 : Fin 2) [⟨S1024x1, a⟩, ⟨S1024x1, b⟩, ⟨S1024x1, c⟩] h (ix2 p (1 : Fin 3)) 1 (by show 1 < 3; decide)
      S1024x1 b rfl rfl 1 rfl (ix2 p (0 : Fin 1)) (hoff 1) rfl
  · exact concatenate_apply_piece (t := S1024x3) (1 : Fin 2) [⟨S1024x1, a⟩, ⟨S1024x1, b⟩, ⟨S1024x1, c⟩] h (ix2 p (2 : Fin 3)) 2 (by show 2 < 3; decide)
      S1024x1 c rfl rfl 2 rfl (ix2 p (0 : Fin 1)) (hoff 2) rfl

/-- The stored block at (p, q): the maximum over the 10 columns of |x(p,k)| + |w(q,k)|. -/
theorem payload_apply (x0 : FVec Ideal S1024x10 .f32) (x1 : FVec Ideal S3x10 .f32) (p : Fin 1024) (q : Fin 3) :
    k0_pay1 (F := Ideal) x0 x1 (ix2 p q)
      = (Finset.univ : Finset (Fin 10)).fold max lo (fun k : Fin 10 => mag (x0 (ix2 p k)) + mag (x1 (ix2 q k))) := by
  unfold k0_pay1
  match q with
  | ⟨0, _⟩ =>
    exact ((concat_columns_apply _ _ _ concatenates_S1024x1_S1024x1_S1024x1_S1024x3_d1 p).1).trans
      (column_apply x0 x1 0 (0 : Fin 3) rfl _ p)
  | ⟨1, _⟩ =>
    exact ((concat_columns_apply _ _ _ concatenates_S1024x1_S1024x1_S1024x1_S1024x3_d1 p).2.1).trans
      (column_apply x0 x1 1 (1 : Fin 3) rfl _ p)
  | ⟨2, _⟩ =>
    exact ((concat_columns_apply _ _ _ concatenates_S1024x1_S1024x1_S1024x1_S1024x3_d1 p).2.2).trans
      (column_apply x0 x1 2 (2 : Fin 3) rfl _ p)

/-! ## From blocks to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 8 points: the rows' window moves with the output's, the weight window stays,
    and the output's block row stays below 8. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 7 :=
  (by decide +kernel : ∀ t : Fin grid0.N, _)

/-- Every block row is some point's. -/
theorem idx_onto : ∀ q0 : Fin 8, ∃ t : Fin cfg0.N, win0_2.index t = ![q0.val, 0] :=
  (by decide +kernel : ∀ q0 : Fin 8, ∃ t : Fin grid0.N, win0_2.index t = ![q0.val, 0])

/-- The rows' block at point t, read at (p, k), is the array at (1024·t + p, k). -/
theorem read_rows (c : Dev nD) (t : Fin cfg0.N) (p : Fin 1024) (k : Fin 10) (i0 : Fin 8192)
    (h0 : i0.val = win0_2.index t (0 : Fin 2) * 1024 + p.val) :
    iblk0 V c 0 t (ix2 p k) = V c main_arg0 (ix2 i0 k) := by
  show V c main_arg0 (((cfg0.win 0).blk t).view.emb (ix2 p k)) = V c main_arg0 (ix2 i0 k)
  obtain ⟨e0, e1, e2, e3, e4, e5⟩ := idx_facts t
  refine congrArg _ (funext fun a => Fin.ext ?_)
  match a with
  | ⟨0, _⟩ => show win0_0.index t (0 : Fin 2) * 1024 + 1 * p.val = i0.val; omega
  | ⟨1, _⟩ => show win0_0.index t (1 : Fin 2) * 10 + 1 * k.val = k.val; omega

/-- The weight table's block at any point, read at (q, k), is the table at (q, k). -/
theorem read_weights (c : Dev nD) (t : Fin cfg0.N) (q : Fin 3) (k : Fin 10) :
    iblk0 V c 1 t (ix2 q k) = V c main_arg1 (ix2 q k) := by
  show V c main_arg1 (((cfg0.win 1).blk t).view.emb (ix2 q k)) = V c main_arg1 (ix2 q k)
  obtain ⟨e0, e1, e2, e3, e4, e5⟩ := idx_facts t
  refine congrArg _ (funext fun a => Fin.ext ?_)
  match a with
  | ⟨0, _⟩ => show win0_1.index t (0 : Fin 2) * 3 + 1 * q.val = q.val; omega
  | ⟨1, _⟩ => show win0_1.index t (1 : Fin 2) * 10 + 1 * k.val = k.val; omega

/-- What point t writes back is block t of the first layer of the arrays the call found. -/
theorem flushed_eq (c : Dev nD) (t : Fin cfg0.N) :
    (dat0 V c).flushed 2 t = ((cfg0.win 2).blk t).view.read (Elt Ideal) (layerOne (V c main_arg0) (V c main_arg1)) := by
  show (cfg0.win 2).cut (grid0.coords t) ((dat0 V c).after 2 t) = _
  rw [after0_2]
  unfold out0_2
  rw [View.canon_unit_zero zero_offsets]
  simp only [View.ld_unit_zero (S := S1024x10) zero_offsets, View.ld_unit_zero (S := S3x10) zero_offsets]
  funext j
  obtain ⟨p, q, rfl⟩ : ∃ (p : Fin 1024) (q : Fin 3), j = ix2 p q := ⟨j 0, j 1, eq_ix2 j⟩
  show k0_pay1 (F := Ideal) (iblk0 V c 0 t) (iblk0 V c 1 t) (ix2 p q)
    = layerOne (V c main_arg0) (V c main_arg1) (((cfg0.win 2).blk t).view.emb (ix2 p q))
  refine (payload_apply (iblk0 V c 0 t) (iblk0 V c 1 t) p q).trans ?_
  obtain ⟨e0, e1, e2, e3, e4, e5⟩ := idx_facts t
  have hp : p.val < 1024 := p.isLt
  have hq : q.val < 3 := q.isLt
  have b0 : win0_2.index t (0 : Fin 2) * 1024 + p.val < 8192 := by omega
  have hemb : ((cfg0.win 2).blk t).view.emb (ix2 p q)
      = ix2 (⟨win0_2.index t (0 : Fin 2) * 1024 + p.val, b0⟩ : Fin 8192) q := by
    funext a; apply Fin.ext
    match a with
    | ⟨0, _⟩ => show win0_2.index t (0 : Fin 2) * 1024 + 1 * p.val = win0_2.index t (0 : Fin 2) * 1024 + p.val; omega
    | ⟨1, _⟩ => show win0_2.index t (1 : Fin 2) * 3 + 1 * q.val = q.val; omega
  rw [hemb]
  show _ = layerOneAt (V c main_arg0) (V c main_arg1) ⟨win0_2.index t (0 : Fin 2) * 1024 + p.val, b0⟩ q
  unfold layerOneAt
  refine Finset.fold_congr (fun k _ => ?_)
  rw [read_rows V c t p k ⟨_, b0⟩ rfl, read_weights V c t q k]

/-- An index is in point t's block iff each coordinate is in the block's range on its axis. -/
theorem mem_blk (t : Fin cfg0.N) (i : S8192x3.Idx) :
    i ∈ ((cfg0.win 2).blk t).view.set ↔ ∀ a : Fin 2, win0_2.index t a * S1024x3.size a ≤ (i a).val
      ∧ (i a).val < win0_2.index t a * S1024x3.size a + S1024x3.size a := by
  show i ∈ ((View.whole main_v0).slice (win0_2.rect t)).set ↔ _
  rw [View.set_slice_whole, Rect.mem_set_unit]
  exact Iff.rfl

/-- Row r lies in the block of the point whose block row is r / 1024. -/
theorem cover (i : S8192x3.Idx) : ∃ t : Fin cfg0.N, (cfg0.win 2).flush t = true ∧ i ∈ ((cfg0.win 2).blk t).view.set := by
  have hi0 : (i 0).val < 8192 := (i 0).isLt
  have hi1 : (i 1).val < 3 := (i 1).isLt
  obtain ⟨t, ht⟩ := idx_onto ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 3 ≤ (i 1).val ∧ (i 1).val < win0_2.index t (1 : Fin 2) * 3 + 3; omega

/-- After the call its output array holds the first layer of the two arrays it read. -/
theorem final (c : Dev nD) : (dat0 V c).arrAt 2 cfg0.N = layerOne (V c main_arg0) (V c main_arg1) :=
  (dat0 V c).arrAt_eq_of_cover 2 _ (fun t _ => flushed_eq V c t) (cover)

end Cert.KernelIdeal.HiddenBlocks

end
-- ==== Proof.DistBlocks.lean ====
/-
  The second pallas_call's output array, as one function of the two arrays the call finds.

  The call walks the 8192 × 8192 table in an 8 × 8 grid of 1024 × 1024 tiles.  At tile (a, b) it loads rows
  1024·a … of the 8192 × 3 operand and columns 1024·b … of the 3 × 8192 operand, and stores the tile whose entry
  (p, r) is the nested maximum of the three terms |row(p,k)| + |col(k,r)|, k = 0, 1, 2: each term is a column of
  |rows| broadcast along the lanes plus a row of |cols| broadcast down the rows.  Tile (a, b) covers rows
  1024·a … 1024·a + 1023 and columns 1024·b … 1024·b + 1023; the 64 tiles cover the table, so the table ends
  holding `tableCols` of the two operands.
-/
import proofs.«134194_j9251359556270_1_alg».proof.Proof.Gen.KernelIdeal.Frame
import proofs.«134194_j9251359556270_1_alg».proof.Proof.MaxPlus
import Idealize.ShloMosaic.Lib.Pipeline.Value
import Idealize.ShloMosaic.Lib.ValueLayout
import Idealize.ShloMosaic.PureOps.Ideal.Laws

noncomputable section

namespace Cert.KernelIdeal.DistBlocks

open Cert.KernelIdeal Cert.KernelIdeal.Gen Cert.MaxPlus
open Idealize.ShloMosaic Idealize.ShloMosaic.TcCoe Idealize.ShloMosaic.ValueIdx Idealize.SL.Sem
open Idealize.ShloMosaic.Pipeline (Dat)

/-! ## The tile's payload at an index -/

/-- A 1024 × 1 column broadcast along the lanes reads, at (p, r), the column at row p. -/
theorem column_broadcast_apply {α : Type} (v : S1024x1.Idx → α) (h : S1024x1.Broadcasts S1024x1024) (p r : Fin 1024) :
    broadcastTo S1024x1024 v h (ix2 p r) = v (ix2 p (0 : Fin 1)) := by
  refine broadcastTo_apply v h (ix2 p r) (ix2 p (0 : Fin 1)) fun ax => ?_
  match ax with
  | ⟨0, _⟩ => show p.val = if (1024 : Nat) = 1 then 0 else p.val; rw [if_neg (by decide)]
  | ⟨1, _⟩ => show 0 = if (1 : Nat) = 1 then 0 else r.val; rw [if_pos rfl]

/-- One of the three terms: column k of |rows| plus row k of |cols|, read at (p, r). -/
theorem term_apply (x0 : FVec Ideal S1024x3 .f32) (x1 : FVec Ideal S3x1024 .f32) (o : Nat) (k : Fin 3) (hk : k.val = o)
    (hs0 : S1024x3.Slices ![0, o] S1024x1) (hs1 : S3x1024.Slices ![o, 0] S1x1024) (p r : Fin 1024) :
    addf (F := Ideal)
        (broadcastTo S1024x1024 (extractStridedSlice S1024x1 ![0, o] (absf (shapeCast S1024x3 x0 shapeCasts_S1024x3_S1024x3)) hs0) broadcasts_S1024x1_S1024x1024)
        (broadcastTo S1024x1024 (extractStridedSlice S1x1024 ![o, 0] (absf (shapeCast S3x1024 x1 shapeCasts_S3x1024_S3x1024)) hs1) broadcasts_S1x1024_S1024x1024)
        (ix2 p r)
      = mag (x0 (ix2 p k)) + mag (x1 (ix2 k r)) := by
  show broadcastTo S1024x1024 (extractStridedSlice S1024x1 ![0, o] (absf (shapeCast S1024x3 x0 shapeCasts_S1024x3_S1024x3)) hs0) broadcasts_S1024x1_S1024x1024 (ix2 p r)
      + broadcastTo S1024x1024 (extractStridedSlice S1x1024 ![o, 0] (absf (shapeCast S3x1024 x1 shapeCasts_S3x1024_S3x1024)) hs1) broadcasts_S1x1024_S1024x1024 (ix2 p r) = _
  rw [column_broadcast_apply, broadcastTo_1b_ab_apply, slice2_axis1_apply o _ hs0 p (0 : Fin 1) k (by omega),
    slice2_axis0_apply o _ hs1 (0 : Fin 1) r k (by omega), shapeCast_self, shapeCast_self]
  rfl

/-- The stored tile at (p, r): the nested maximum of the three terms. -/
theorem payload_apply (x0 : FVec Ideal S1024x3 .f32) (x1 : FVec Ideal S3x1024 .f32) (p r : Fin 1024) :
    k1_pay1 (F := Ideal) x0 x1 (ix2 p r)
      = max (max (mag (x0 (ix2 p (0 : Fin 3))) + mag (x1 (ix2 (0 : Fin 3) r)))
                 (mag (x0 (ix2 p (1 : Fin 3))) + mag (x1 (ix2 (1 : Fin 3) r))))
            (mag (x0 (ix2 p (2 : Fin 3))) + mag (x1 (ix2 (2 : Fin 3) r))) := by
  unfold k1_pay1
  exact congrArg₂ max (congrArg₂ max (term_apply x0 x1 0 0 rfl _ _ p r) (term_apply x0 x1 1 1 rfl _ _ p r))
    (term_apply x0 x1 2 2 rfl _ _ p r)

/-! ## From tiles to the table -/

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the 64 points: the row operand's window moves with the output's tile row, the
    column operand's with its tile column, and both tile coordinates stay below 8. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = win1_2.index t (1 : Fin 2)
    ∧ win1_2.index t (0 : Fin 2) ≤ 7
    ∧ win1_2.index t (1 : Fin 2) ≤ 7 :=
  (by decide +kernel : ∀ t : Fin grid1.N, _)

/-- Every tile is some point's. -/
theorem idx_onto : ∀ q0 q1 : Fin 8, ∃ t : Fin cfg1.N, win1_2.index t = ![q0.val, q1.val] :=
  (by decide +kernel : ∀ q0 q1 : Fin 8, ∃ t : Fin grid1.N, win1_2.index t = ![q0.val, q1.val])

/-- The row operand's block at point t, read at (p, k), is the array at (1024·a + p, k), a the tile row. -/
theorem read_left (c : Dev nD) (t : Fin cfg1.N) (p : Fin 1024) (k : Fin 3) (i0 : Fin 8192)
    (h0 : i0.val = win1_2.index t (0 : Fin 2) * 1024 + p.val) :
    iblk1 V c 0 t (ix2 p k) = V c main_v0 (ix2 i0 k) := by
  show V c main_v0 (((cfg1.win 0).blk t).view.emb (ix2 p k)) = V c main_v0 (ix2 i0 k)
  obtain ⟨e0, e1, e2, e3, e4, e5⟩ := idx_facts t
  refine congrArg _ (funext fun a => Fin.ext ?_)
  match a with
  | ⟨0, _⟩ => show win1_0.index t (0 : Fin 2) * 1024 + 1 * p.val = i0.val; omega
  | ⟨1, _⟩ => show win1_0.index t (1 : Fin 2) * 3 + 1 * k.val = k.val; omega

/-- The column operand's block at point t, read at (k, r), is the array at (k, 1024·b + r), b the tile column. -/
theorem read_right (c : Dev nD) (t : Fin cfg1.N) (k : Fin 3) (r : Fin 1024) (i1 : Fin 8192)
    (h1 : i1.val = win1_2.index t (1 : Fin 2) * 1024 + r.val) :
    iblk1 V c 1 t (ix2 k r) = V c main_v1 (ix2 k i1) := by
  show V c main_v1 (((cfg1.win 1).blk t).view.emb (ix2 k r)) = V c main_v1 (ix2 k i1)
  obtain ⟨e0, e1, e2, e3, e4, e5⟩ := idx_facts t
  refine congrArg _ (funext fun a => Fin.ext ?_)
  match a with
  | ⟨0, _⟩ => show win1_1.index t (0 : Fin 2) * 3 + 1 * k.val = k.val; omega
  | ⟨1, _⟩ => show win1_1.index t (1 : Fin 2) * 1024 + 1 * r.val = i1.val; omega

/-- What point t writes back is tile t of the three-way maximum of the two operands the call found. -/
theorem flushed_eq (c : Dev nD) (t : Fin cfg1.N) :
    (dat1 V c).flushed 2 t = ((cfg1.win 2).blk t).view.read (Elt Ideal) (tableCols (V c main_v0) (V c main_v1)) := by
  show (cfg1.win 2).cut (grid1.coords t) ((dat1 V c).after 2 t) = _
  rw [after1_2]
  unfold out1_2
  rw [View.canon_unit_zero zero_offsets]
  simp only [View.ld_unit_zero (S := S1024x3) zero_offsets, View.ld_unit_zero (S := S3x1024) zero_offsets]
  funext j
  obtain ⟨p, r, rfl⟩ : ∃ (p r : Fin 1024), j = ix2 p r := ⟨j 0, j 1, eq_ix2 j⟩
  show k1_pay1 (F := Ideal) (iblk1 V c 0 t) (iblk1 V c 1 t) (ix2 p r)
    = tableCols (V c main_v0) (V c main_v1) (((cfg1.win 2).blk t).view.emb (ix2 p r))
  refine (payload_apply (iblk1 V c 0 t) (iblk1 V c 1 t) p r).trans ?_
  obtain ⟨e0, e1, e2, e3, e4, e5⟩ := idx_facts t
  have hp : p.val < 1024 := p.isLt
  have hr : r.val < 1024 := r.isLt
  have b0 : win1_2.index t (0 : Fin 2) * 1024 + p.val < 8192 := by omega
  have b1 : win1_2.index t (1 : Fin 2) * 1024 + r.val < 8192 := by omega
  have hemb : ((cfg1.win 2).blk t).view.emb (ix2 p r)
      = ix2 (⟨win1_2.index t (0 : Fin 2) * 1024 + p.val, b0⟩ : Fin 8192) (⟨win1_2.index t (1 : Fin 2) * 1024 + r.val, b1⟩ : Fin 8192) := by
    funext a; apply Fin.ext
    match a with
    | ⟨0, _⟩ => show win1_2.index t (0 : Fin 2) * 1024 + 1 * p.val = win1_2.index t (0 : Fin 2) * 1024 + p.val; omega
    | ⟨1, _⟩ => show win1_2.index t (1 : Fin 2) * 1024 + 1 * r.val = win1_2.index t (1 : Fin 2) * 1024 + r.val; omega
  rw [hemb]
  show _ = tableColsAt (V c main_v0) (V c main_v1) ⟨win1_2.index t (0 : Fin 2) * 1024 + p.val, b0⟩ ⟨win1_2.index t (1 : Fin 2) * 1024 + r.val, b1⟩
  unfold tableColsAt
  rw [read_left V c t p 0 ⟨_, b0⟩ rfl, read_left V c t p 1 ⟨_, b0⟩ rfl, read_left V c t p 2 ⟨_, b0⟩ rfl,
    read_right V c t 0 r ⟨_, b1⟩ rfl, read_right V c t 1 r ⟨_, b1⟩ rfl, read_right V c t 2 r ⟨_, b1⟩ rfl]

/-- An index is in point t's tile iff each coordinate is in the tile's range on its axis. -/
theorem mem_blk (t : Fin cfg1.N) (i : S8192x8192.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v2).slice (win1_2.rect t)).set ↔ _
  rw [View.set_slice_whole, Rect.mem_set_unit]
  exact Iff.rfl

/-- Entry (n, n') lies in the tile (n / 1024, n' / 1024). -/
theorem cover (i : S8192x8192.Idx) : ∃ t : Fin cfg1.N, (cfg1.win 2).flush t = true ∧ i ∈ ((cfg1.win 2).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win1_2.index t (0 : Fin 2) = (i 0).val / 1024 := congrFun ht 0
  have q1 : win1_2.index t (1 : Fin 2) = (i 1).val / 1024 := congrFun ht 1
  refine ⟨t, flush1_2 t, ?_⟩
  rw [mem_blk]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 1024 ≤ (i 1).val ∧ (i 1).val < win1_2.index t (1 : Fin 2) * 1024 + 1024; omega

/-- After the call its output table holds the three-way maximum of the two operands it read. -/
theorem final (c : Dev nD) : (dat1 V c).arrAt 2 cfg1.N = tableCols (V c main_v0) (V c main_v1) :=
  (dat1 V c).arrAt_eq_of_cover 2 _ (fun t _ => flushed_eq V c t) (cover)

end Cert.KernelIdeal.DistBlocks

end
-- ==== Proof.KernelValue.lean ====
/-
  The idealized kernel's result as one function of its two arguments.

  After the first call the hidden buffer holds the first layer of the arguments.  The one host operation between
  the calls writes the transposed hidden table into a second buffer and touches nothing else, so the second call
  finds the hidden table as its row operand and its transpose as its column operand.  It leaves the three-way
  maximum of the two in the result buffer, and with the column operand the transpose of the row operand that is
  the second layer of the hidden table (`Cert.MaxPlus.tableCols_transpose`).  The run with the result buffer named
  is then re-posted with that function of the arguments.
-/
import proofs.«134194_j9251359556270_1_alg».proof.Proof.NamedRun
import proofs.«134194_j9251359556270_1_alg».proof.Proof.HiddenBlocks
import proofs.«134194_j9251359556270_1_alg».proof.Proof.DistBlocks
import Idealize.ShloMosaic.Lib.StableHlo.Run
import Idealize.ShloMosaic.Lib.ValueLayout

noncomputable section

namespace Cert.KernelIdeal.KernelValue

open Cert.KernelIdeal Cert.KernelIdeal.Gen Cert.MaxPlus
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- After the first call the hidden buffer holds the first layer of the two arguments. -/
theorem hidden_table (c : Dev nD) :
    W1 m ρ c (Proc.devRef .tc main_v0)
      = layerOne (m ((c : Thread nD τ).loc main_arg0)) (m ((c : Thread nD τ).loc main_arg1)) :=
  (W1_arr m ρ c 2).trans (HiddenBlocks.final (V0 m ρ) c)

/-- The host transpose leaves the hidden buffer as it was: the second call's row operand is the hidden table. -/
theorem entry_rows (c : Dev nD) : V2 m ρ c main_v0 = W1 m ρ c (Proc.devRef .tc main_v0) := by
  show StableHlo.after hostOps1 (W1 m ρ c) (Proc.devRef .tc main_v0) = _
  after_results

/-- The second call's column operand is the hidden table transposed. -/
theorem entry_cols (c : Dev nD) :
    V2 m ρ c main_v1 = transpose S3x8192 [1, 0] (W1 m ρ c (Proc.devRef .tc main_v0)) transposes_S8192x3_S3x8192_1_0 := by
  show StableHlo.after hostOps1 (W1 m ρ c) (Proc.devRef .tc main_v1) = _
  after_results

/-- The last boundary's contents of the result buffer: the second layer of the first layer of the arguments. -/
theorem result_table (c : Dev nD) :
    W3 m ρ c (Proc.devRef .tc main_v2)
      = layerTwo (layerOne (m ((c : Thread nD τ).loc main_arg0)) (m ((c : Thread nD τ).loc main_arg1))) := by
  refine (W3_arr m ρ c 2).trans ?_
  refine (DistBlocks.final (V2 m ρ) c).trans ?_
  rw [entry_rows m ρ c, entry_cols m ρ c, hidden_table m ρ c]
  exact tableCols_transpose _ _ (fun k n => transpose_ix2_apply _ transposes_S8192x3_S3x8192_1_0 k n)

/-- Every weakly fair execution of the idealized kernel terminates without a fault, with the result array at the two
    layers composed of the arguments and the arguments unchanged. -/
theorem run : θ_run defs (onTc (τ := τ) (main (F := Ideal))) ⟨m, fun _ => 0, ρ⟩ (fun r => ∀ c : Dev nD,
      r.2.mem ((c.tc : Thread nD τ).loc main_v2)
        = layerTwo (layerOne (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_table m ρ c), (h c).2⟩) (NamedRun.run m ρ)

end Cert.KernelIdeal.KernelValue

end
-- ==== Proof.RefValue.lean ====
/-
  The reference program's result, as the two max-plus layers of `Cert.MaxPlus`.

  The reference broadcasts |x| and |w| to an 8192 × 3 × 10 table, adds, and reduces the last axis with `max` from
  minus infinity: read at (n, m) that is the fold of `max` over the 10 columns k of |x(n,k)| + |w(m,k)|, the
  first layer.  It then does the same with the hidden table against itself over an 8192 × 8192 × 3 table: read
  at (n, n') that is the fold over the 3 hidden columns k of |o(n,k)| + |o(n',k)|, the second layer.
  Each reduce over one axis is the fold over that axis's coordinates; every other stage reads one element of
  its operand, and the composed index maps are the evident coordinate choices.
-/
import proofs.«134194_j9251359556270_1_alg».proof.Proof.Gen.ReferenceIdeal.Read
import proofs.«134194_j9251359556270_1_alg».proof.Proof.MaxPlus
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.Read Cert.MaxPlus
open Idealize.ShloMosaic Idealize.ShloMosaic.ValueIdx

/-- The two reductions drop the last axis. -/
theorem reduces_cols10 : S8192x3x10.Reduces [2] S8192x3 := by decide
theorem reduces_cols3 : S8192x8192x3.Reduces [2] S8192x8192 := by decide

/-- (n, m) with column k inserted on the dropped axis is (n, m, k). -/
theorem lift_cols10 (n : Fin 8192) (m : Fin 3) (k : Fin 10) : reduces_cols10.lift (ix2 n m) k = ix3 n m k :=
  funext fun a => Fin.ext (match a with | ⟨0, _⟩ => rfl | ⟨1, _⟩ => rfl | ⟨2, _⟩ => rfl)
theorem lift_cols3 (n n' : Fin 8192) (k : Fin 3) : reduces_cols3.lift (ix2 n n') k = ix3 n n' k :=
  funext fun a => Fin.ext (match a with | ⟨0, _⟩ => rfl | ⟨1, _⟩ => rfl | ⟨2, _⟩ => rfl)

/-- A fold over the dropped axis's coordinates is the fold over the column index with (n, m, k) read. -/
theorem fold_cols10 (y : S8192x3x10.Idx → EReal) (n : Fin 8192) (m : Fin 3) :
    (Finset.univ : Finset (Fin (S8192x3x10.size 2))).fold max lo (y ∘ reduces_cols10.lift (ix2 n m))
      = (Finset.univ : Finset (Fin 10)).fold max lo (fun k : Fin 10 => y (ix3 n m k)) :=
  Finset.fold_congr (fun k _ => congrArg y (lift_cols10 n m k))
theorem fold_cols3 (y : S8192x8192x3.Idx → EReal) (n n' : Fin 8192) :
    (Finset.univ : Finset (Fin (S8192x8192x3.size 2))).fold max lo (y ∘ reduces_cols3.lift (ix2 n n'))
      = (Finset.univ : Finset (Fin 3)).fold max lo (fun k : Fin 3 => y (ix3 n n' k)) :=
  Finset.fold_congr (fun k _ => congrArg y (lift_cols3 n n' k))

/-- The composed index maps of the broadcasts: which element of each operand the sum at (n, m, k) reads. -/
theorem idx_rows (n : Fin 8192) (m : Fin 3) (k : Fin 10) : idx_main_v1 (idx_main_v4 (ix3 n m k)) = ix2 n k :=
  funext fun a => Fin.ext (by match a with | ⟨0, _⟩ => rfl | ⟨1, _⟩ => rfl)
theorem idx_weights (n : Fin 8192) (m : Fin 3) (k : Fin 10) : idx_main_v3 (idx_main_v5 (ix3 n m k)) = ix2 m k :=
  funext fun a => Fin.ext (by match a with | ⟨0, _⟩ => rfl | ⟨1, _⟩ => rfl)
theorem idx_left (n n' : Fin 8192) (k : Fin 3) : idx_main_v9 (idx_main_v12 (ix3 n n' k)) = ix2 n k :=
  funext fun a => Fin.ext (by match a with | ⟨0, _⟩ => rfl | ⟨1, _⟩ => rfl)
theorem idx_right (n n' : Fin 8192) (k : Fin 3) : idx_main_v11 (idx_main_v13 (ix3 n n' k)) = ix2 n' k :=
  funext fun a => Fin.ext (by match a with | ⟨0, _⟩ => rfl | ⟨1, _⟩ => rfl)

/-- The first reduce is the first layer. -/
theorem layerOne_eq (x : (⟨S8192x10, .f32⟩ : BufTy).Contents (Elt Ideal)) (w : (⟨S3x10, .f32⟩ : BufTy).Contents (Elt Ideal)) :
    val_main_v7 (F := Ideal) x w = layerOne x w := by
  funext i
  obtain ⟨n, m, rfl⟩ : ∃ (n : Fin 8192) (m : Fin 3), i = ix2 n m := ⟨i 0, i 1, eq_ix2 i⟩
  show val_main_v7 (F := Ideal) x w (ix2 n m) = layerOneAt x w n m
  unfold val_main_v7 layerOneAt
  refine (Host.reduce_eq_fold_single (FloatOps.maximumf (F := Ideal) (φ := .f32)) _ _ reducesTo_S8192x3x10_S8192x3_d2
    reduces_cols10 h_S_ (ix2 n m)).trans ?_
  refine (fold_cols10 _ n m).trans ?_
  refine Finset.fold_congr (fun k _ => ?_)
  rw [val_main_v6_apply, val_main_v4_apply, val_main_v1_apply, val_main_v0_apply, val_main_v5_apply,
    val_main_v3_apply, val_main_v2_apply, idx_rows, idx_weights]
  rfl

/-- The second reduce is the second layer of the first. -/
theorem layerTwo_eq (x : (⟨S8192x10, .f32⟩ : BufTy).Contents (Elt Ideal)) (w : (⟨S3x10, .f32⟩ : BufTy).Contents (Elt Ideal)) :
    val_main_v15 (F := Ideal) x w = layerTwo (layerOne x w) := by
  funext i
  obtain ⟨n, n', rfl⟩ : ∃ (n n' : Fin 8192), i = ix2 n n' := ⟨i 0, i 1, eq_ix2 i⟩
  show val_main_v15 (F := Ideal) x w (ix2 n n') = layerTwoAt (layerOne x w) n n'
  unfold val_main_v15 layerTwoAt
  refine (Host.reduce_eq_fold_single (FloatOps.maximumf (F := Ideal) (φ := .f32)) _ _ reducesTo_S8192x8192x3_S8192x8192_d2
    reduces_cols3 h_S_ (ix2 n n')).trans ?_
  refine (fold_cols3 _ n n').trans ?_
  refine Finset.fold_congr (fun k _ => ?_)
  rw [val_main_v14_apply, val_main_v12_apply, val_main_v9_apply, val_main_v8_apply, val_main_v13_apply,
    val_main_v11_apply, val_main_v10_apply, idx_left, idx_right, layerOne_eq]
  rfl

end Cert.ReferenceIdeal.RefValue

end
-- ==== Proof.lean ====
/-
  The certificate of a two-layer max-plus ("tropical") network against its jnp reference, over the extended reals.

  Both programs send x (8192 × 10) and w (3 × 10) to  D(n, n') = max over k < 3 of |H(n,k)| + |H(n',k)|,
  where  H(n, m) = max over k < 10 of |x(n,k)| + |w(m,k)|.
  The kernel computes H block by block in a first pallas_call (a lane maximum per hidden column), transposes it on
  the host, and computes D tile by tile in a second pallas_call as a nested three-way maximum of row-plus-column
  terms; the reference broadcasts, adds and reduces with `max` from minus infinity, twice.  At the ideal instance the
  absolute value, the sum and the maximum are the exact ones, a lane maximum and a host reduce over one axis are both
  the fold of `max` over that axis's coordinates from the same minus-infinity word, and the fold over three indices
  from a neutral start is the nested maximum: so the two results are one function of the arguments, index by index.
  Only commutativity and associativity of `max` are used; the finiteness precondition is never opened.

  The three frames: the two kernels' are the generated frame certificates; the reference's is its generated run with
  the result dropped.  The ideal pass rewrote no operation, so `preserves` has nothing to state.
-/
import proofs.«134194_j9251359556270_1_alg».proof.Defs
import proofs.«134194_j9251359556270_1_alg».proof.Proof.Gen.Kernel
import proofs.«134194_j9251359556270_1_alg».proof.Proof.Gen.Kernel.Skeleton
import proofs.«134194_j9251359556270_1_alg».proof.Proof.Gen.Kernel.Launch
import proofs.«134194_j9251359556270_1_alg».proof.Proof.Gen.Kernel.Points
import proofs.«134194_j9251359556270_1_alg».proof.Proof.Gen.Kernel.Frame
import proofs.«134194_j9251359556270_1_alg».proof.Proof.Gen.KernelIdeal
import proofs.«134194_j9251359556270_1_alg».proof.Proof.Gen.KernelIdeal.Skeleton
import proofs.«134194_j9251359556270_1_alg».proof.Proof.Gen.KernelIdeal.Launch
import proofs.«134194_j9251359556270_1_alg».proof.Proof.Gen.KernelIdeal.Points
import proofs.«134194_j9251359556270_1_alg».proof.Proof.Gen.KernelIdeal.Frame
import proofs.«134194_j9251359556270_1_alg».proof.Proof.Gen.ReferenceIdeal
import proofs.«134194_j9251359556270_1_alg».proof.Proof.Gen.Pre_finite_inputs
import proofs.«134194_j9251359556270_1_alg».proof.Proof.Gen.ReferenceIdeal.Run
import proofs.«134194_j9251359556270_1_alg».proof.Proof.Gen.ReferenceIdeal.Read
import proofs.«134194_j9251359556270_1_alg».proof.Proof.KernelValue
import proofs.«134194_j9251359556270_1_alg».proof.Proof.RefValue
import Idealize.ShloMosaic.Adequacy
import Idealize.ShloMosaic.Init

noncomputable section

namespace Cert.Proof

open Idealize.ShloMosaic Idealize.ShloMosaic.TcCoe Idealize.SL.Sem Cert.MaxPlus

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the result array at the second layer of
    the first layer of the arguments: the kernel by its two calls read block by block, the reference by its run read
    stage by stage. -/
theorem algebraic : Cert.algebraic_KernelIdeal_ReferenceIdeal := by
  intro m ρ m' ρ' _ hagree
  refine ⟨fun c => layerTwo (layerOne (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.layerTwo_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
